-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x512 : Shape := ⟨2, ![65536, 512]⟩
abbrev S512x64 : Shape := ⟨2, ![512, 64]⟩
abbrev S_ : Shape := ⟨0, ![]⟩

class Facts : Prop where
  bcast_S_S65536x512 : S_.BroadcastsInDim S65536x512 (![] : Fin 0 → Fin S65536x512.rank)
  reducesTo_S65536x512_S_d0_1 : S65536x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S65536x512 .f32) (main_arg1 : FVec F S512x64 .f32) : IVec S_ 1 :=
  let main_v0 : FVec F S65536x512 .f32 := Host.absf main_arg0
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_c : IVec S_ 1 := constantI S_ 1 1#1
  let main_v3 : IVec S_ 1 := (fun x v => Host.reduce IntOp.andi x v reducesTo_S65536x512_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  main_v8
-- ==== Kernel.lean ====
abbrev S65536x512 : Shape := ⟨2, ![65536, 512]⟩
abbrev S512x64 : Shape := ⟨2, ![512, 64]⟩
abbrev S64x512 : Shape := ⟨2, ![64, 512]⟩
abbrev S63x512 : Shape := ⟨2, ![63, 512]⟩
abbrev S_ : Shape := ⟨0, ![]⟩
abbrev S65536x1 : Shape := ⟨2, ![65536, 1]⟩
abbrev S2048x512 : Shape := ⟨2, ![2048, 512]⟩
abbrev S2048x1 : Shape := ⟨2, ![2048, 1]⟩
abbrev S1x512 : Shape := ⟨2, ![1, 512]⟩
abbrev S512 : Shape := ⟨1, ![512]⟩
abbrev S2048 : Shape := ⟨1, ![2048]⟩
abbrev S65536 : Shape := ⟨1, ![65536]⟩

abbrev nBuf : Space → Nat
  | .hbm => 11
  | .vmem => 6
  | .smem => 0
  | _ => 0

abbrev bufTy : (tb : Table) → Fin (tcTables nBuf tb) → BufTy
  | .hbm, ⟨0, _⟩ => ⟨S65536x512, .f32⟩
  | .hbm, ⟨1, _⟩ => ⟨S512x64, .f32⟩
  | .hbm, ⟨2, _⟩ => ⟨S64x512, .f32⟩
  | .hbm, ⟨3, _⟩ => ⟨S63x512, .f32⟩
  | .hbm, ⟨4, _⟩ => ⟨S63x512, .f32⟩
  | .hbm, ⟨5, _⟩ => ⟨S63x512, .f32⟩
  | .hbm, ⟨6, _⟩ => ⟨S_, .i32⟩
  | .hbm, ⟨7, _⟩ => ⟨S_, .f32⟩
  | .hbm, ⟨8, _⟩ => ⟨S64x512, .f32⟩
  | .hbm, ⟨9, _⟩ => ⟨S65536x1, .f32⟩
  | .hbm, ⟨10, _⟩ => ⟨S65536, .f32⟩
  | .local _ .vmem, ⟨0, _⟩ => ⟨S2048x512, .f32⟩
  | .local _ .vmem, ⟨1, _⟩ => ⟨S2048x512, .f32⟩
  | .local _ .vmem, ⟨2, _⟩ => ⟨S64x512, .f32⟩
  | .local _ .vmem, ⟨3, _⟩ => ⟨S64x512, .f32⟩
  | .local _ .vmem, ⟨4, _⟩ => ⟨S2048x1, .f32⟩
  | .local _ .vmem, ⟨5, _⟩ => ⟨S2048x1, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x64_S64x512_1_0 : S512x64.Transposes [1, 0] S64x512
  slices_S64x512_S63x512_1_0 : S64x512.Slices ![1, 0] S63x512
  slices_S64x512_S63x512_0_0 : S64x512.Slices ![0, 0] S63x512
  pads_S63x512_S64x512_010_000 : S63x512.Pads (![0, 0] : Fin 2 → Nat) ![1, 0] ![0, 0] S64x512
  h_S_ : 0 < S_.numel
  inb_S2048x512_S2048x512_0_0 : ∀ a, (![0, 0] : Fin 2 → Nat) a + S2048x512.size a ≤ S2048x512.size a
  h_S2048x512 : 0 < S2048x512.numel
  inb_S64x512_S1x512_0_0 : ∀ a, (![0, 0] : Fin 2 → Nat) a + S1x512.size a ≤ S64x512.size a
  h_S1x512 : 0 < S1x512.numel
  shapeCasts_S1x512_S512 : S1x512.ShapeCasts S512
  shapeCasts_S512_S1x512 : S512.ShapeCasts S1x512
  broadcasts_S1x512_S2048x512 : S1x512.Broadcasts S2048x512
  inb_S64x512_S1x512_1_0 : ∀ a, (![1, 0] : Fin 2 → Nat) a + S1x512.size a ≤ S64x512.size a
  inb_S64x512_S1x512_2_0 : ∀ a, (![2, 0] : Fin 2 → Nat) a + S1x512.size a ≤ S64x512.size a
  inb_S64x512_S1x512_3_0 : ∀ a, (![3, 0] : Fin 2 → Nat) a + S1x512.size a ≤ S64x512.size a
  inb_S64x512_S1x512_4_0 : ∀ a, (![4, 0] : Fin 2 → Nat) a + S1x512.size a ≤ S64x512.size a
  inb_S64x512_S1x512_5_0 : ∀ a, (![5, 0] : Fin 2 → Nat) a + S1x512.size a ≤ S64x512.size a
  inb_S64x512_S1x512_6_0 : ∀ a, (![6, 0] : Fin 2 → Nat) a + S1x512.size a ≤ S64x512.size a
  inb_S64x512_S1x512_7_0 : ∀ a, (![7, 0] : Fin 2 → Nat) a + S1x512.size a ≤ S64x512.size a
  inb_S64x512_S1x512_8_0 : ∀ a, (![8, 0] : Fin 2 → Nat) a + S1x512.size a ≤ S64x512.size a
  inb_S64x512_S1x512_9_0 : ∀ a, (![9, 0] : Fin 2 → Nat) a + S1x512.size a ≤ S64x512.size a
  inb_S64x512_S1x512_10_0 : ∀ a, (![10, 0] : Fin 2 → Nat) a + S1x512.size a ≤ S64x512.size a
  inb_S64x512_S1x512_11_0 : ∀ a, (![11, 0] : Fin 2 → Nat) a + S1x512.size a ≤ S64x512.size a
  inb_S64x512_S1x512_12_0 : ∀ a, (![12, 0] : Fin 2 → Nat) a + S1x512.size a ≤ S64x512.size a
  inb_S64x512_S1x512_13_0 : ∀ a, (![13, 0] : Fin 2 → Nat) a + S1x512.size a ≤ S64x512.size a
  inb_S64x512_S1x512_14_0 : ∀ a, (![14, 0] : Fin 2 → Nat) a + S1x512.size a ≤ S64x512.size a
  inb_S64x512_S1x512_15_0 : ∀ a, (![15, 0] : Fin 2 → Nat) a + S1x512.size a ≤ S64x512.size a
  inb_S64x512_S1x512_16_0 : ∀ a, (![16, 0] : Fin 2 → Nat) a + S1x512.size a ≤ S64x512.size a
  inb_S64x512_S1x512_17_0 : ∀ a, (![17, 0] : Fin 2 → Nat) a + S1x512.size a ≤ S64x512.size a
  inb_S64x512_S1x512_18_0 : ∀ a, (![18, 0] : Fin 2 → Nat) a + S1x512.size a ≤ S64x512.size a
  inb_S64x512_S1x512_19_0 : ∀ a, (![19, 0] : Fin 2 → Nat) a + S1x512.size a ≤ S64x512.size a
  inb_S64x512_S1x512_20_0 : ∀ a, (![20, 0] : Fin 2 → Nat) a + S1x512.size a ≤ S64x512.size a
  inb_S64x512_S1x512_21_0 : ∀ a, (![21, 0] : Fin 2 → Nat) a + S1x512.size a ≤ S64x512.size a
  inb_S64x512_S1x512_22_0 : ∀ a, (![22, 0] : Fin 2 → Nat) a + S1x512.size a ≤ S64x512.size a
  inb_S64x512_S1x512_23_0 : ∀ a, (![23, 0] : Fin 2 → Nat) a + S1x512.size a ≤ S64x512.size a
  inb_S64x512_S1x512_24_0 : ∀ a, (![24, 0] : Fin 2 → Nat) a + S1x512.size a ≤ S64x512.size a
  inb_S64x512_S1x512_25_0 : ∀ a, (![25, 0] : Fin 2 → Nat) a + S1x512.size a ≤ S64x512.size a
  inb_S64x512_S1x512_26_0 : ∀ a, (![26, 0] : Fin 2 → Nat) a + S1x512.size a ≤ S64x512.size a
  inb_S64x512_S1x512_27_0 : ∀ a, (![27, 0] : Fin 2 → Nat) a + S1x512.size a ≤ S64x512.size a
  inb_S64x512_S1x512_28_0 : ∀ a, (![28, 0] : Fin 2 → Nat) a + S1x512.size a ≤ S64x512.size a
  inb_S64x512_S1x512_29_0 : ∀ a, (![29, 0] : Fin 2 → Nat) a + S1x512.size a ≤ S64x512.size a
  inb_S64x512_S1x512_30_0 : ∀ a, (![30, 0] : Fin 2 → Nat) a + S1x512.size a ≤ S64x512.size a
  inb_S64x512_S1x512_31_0 : ∀ a, (![31, 0] : Fin 2 → Nat) a + S1x512.size a ≤ S64x512.size a
  inb_S64x512_S1x512_32_0 : ∀ a, (![32, 0] : Fin 2 → Nat) a + S1x512.size a ≤ S64x512.size a
  inb_S64x512_S1x512_33_0 : ∀ a, (![33, 0] : Fin 2 → Nat) a + S1x512.size a ≤ S64x512.size a
  inb_S64x512_S1x512_34_0 : ∀ a, (![34, 0] : Fin 2 → Nat) a + S1x512.size a ≤ S64x512.size a
  inb_S64x512_S1x512_35_0 : ∀ a, (![35, 0] : Fin 2 → Nat) a + S1x512.size a ≤ S64x512.size a
  inb_S64x512_S1x512_36_0 : ∀ a, (![36, 0] : Fin 2 → Nat) a + S1x512.size a ≤ S64x512.size a
  inb_S64x512_S1x512_37_0 : ∀ a, (![37, 0] : Fin 2 → Nat) a + S1x512.size a ≤ S64x512.size a
  inb_S64x512_S1x512_38_0 : ∀ a, (![38, 0] : Fin 2 → Nat) a + S1x512.size a ≤ S64x512.size a
  inb_S64x512_S1x512_39_0 : ∀ a, (![39, 0] : Fin 2 → Nat) a + S1x512.size a ≤ S64x512.size a
  inb_S64x512_S1x512_40_0 : ∀ a, (![40, 0] : Fin 2 → Nat) a + S1x512.size a ≤ S64x512.size a
  inb_S64x512_S1x512_41_0 : ∀ a, (![41, 0] : Fin 2 → Nat) a + S1x512.size a ≤ S64x512.size a
  inb_S64x512_S1x512_42_0 : ∀ a, (![42, 0] : Fin 2 → Nat) a + S1x512.size a ≤ S64x512.size a
  inb_S64x512_S1x512_43_0 : ∀ a, (![43, 0] : Fin 2 → Nat) a + S1x512.size a ≤ S64x512.size a
  inb_S64x512_S1x512_44_0 : ∀ a, (![44, 0] : Fin 2 → Nat) a + S1x512.size a ≤ S64x512.size a
  inb_S64x512_S1x512_45_0 : ∀ a, (![45, 0] : Fin 2 → Nat) a + S1x512.size a ≤ S64x512.size a
  inb_S64x512_S1x512_46_0 : ∀ a, (![46, 0] : Fin 2 → Nat) a + S1x512.size a ≤ S64x512.size a
  inb_S64x512_S1x512_47_0 : ∀ a, (![47, 0] : Fin 2 → Nat) a + S1x512.size a ≤ S64x512.size a
  inb_S64x512_S1x512_48_0 : ∀ a, (![48, 0] : Fin 2 → Nat) a + S1x512.size a ≤ S64x512.size a
  inb_S64x512_S1x512_49_0 : ∀ a, (![49, 0] : Fin 2 → Nat) a + S1x512.size a ≤ S64x512.size a
  inb_S64x512_S1x512_50_0 : ∀ a, (![50, 0] : Fin 2 → Nat) a + S1x512.size a ≤ S64x512.size a
  inb_S64x512_S1x512_51_0 : ∀ a, (![51, 0] : Fin 2 → Nat) a + S1x512.size a ≤ S64x512.size a
  inb_S64x512_S1x512_52_0 : ∀ a, (![52, 0] : Fin 2 → Nat) a + S1x512.size a ≤ S64x512.size a
  inb_S64x512_S1x512_53_0 : ∀ a, (![53, 0] : Fin 2 → Nat) a + S1x512.size a ≤ S64x512.size a
  inb_S64x512_S1x512_54_0 : ∀ a, (![54, 0] : Fin 2 → Nat) a + S1x512.size a ≤ S64x512.size a
  inb_S64x512_S1x512_55_0 : ∀ a, (![55, 0] : Fin 2 → Nat) a + S1x512.size a ≤ S64x512.size a
  inb_S64x512_S1x512_56_0 : ∀ a, (![56, 0] : Fin 2 → Nat) a + S1x512.size a ≤ S64x512.size a
  inb_S64x512_S1x512_57_0 : ∀ a, (![57, 0] : Fin 2 → Nat) a + S1x512.size a ≤ S64x512.size a
  inb_S64x512_S1x512_58_0 : ∀ a, (![58, 0] : Fin 2 → Nat) a + S1x512.size a ≤ S64x512.size a
  inb_S64x512_S1x512_59_0 : ∀ a, (![59, 0] : Fin 2 → Nat) a + S1x512.size a ≤ S64x512.size a
  inb_S64x512_S1x512_60_0 : ∀ a, (![60, 0] : Fin 2 → Nat) a + S1x512.size a ≤ S64x512.size a
  inb_S64x512_S1x512_61_0 : ∀ a, (![61, 0] : Fin 2 → Nat) a + S1x512.size a ≤ S64x512.size a
  inb_S64x512_S1x512_62_0 : ∀ a, (![62, 0] : Fin 2 → Nat) a + S1x512.size a ≤ S64x512.size a
  reduces_S2048x512_S2048 : S2048x512.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S65536x1_S65536 : S65536x1.ShapeCasts S65536
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S65536x512.size a
  hwx0_0 : ∀ i : grid0.Coords, EltTy.bits .f32 = 32 ∨ (Rect.block (s := S65536x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x512.size a
  hwx0_2 : ∀ i : grid0.Coords, EltTy.bits .f32 = 32 ∨ (Rect.block (s := S64x512) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S65536x1.size a
  hwx0_3 : ∀ i : grid0.Coords, EltTy.bits .f32 = 32 ∨ (Rect.block (s := S65536x1) S2048x1.size (cc0_transform_3 i) (hinb0_3 i)).WholeWords (EltTy.packing .f32)

variable [Facts₀]

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x512 : Shape := ⟨2, ![65536, 512]⟩
abbrev S512x64 : Shape := ⟨2, ![512, 64]⟩
abbrev S_ : Shape := ⟨0, ![]⟩
abbrev S512 : Shape := ⟨1, ![512]⟩
abbrev S1x512 : Shape := ⟨2, ![1, 512]⟩
abbrev S65536x512x1 : Shape := ⟨3, ![65536, 512, 1]⟩
abbrev S65536x512x2 : Shape := ⟨3, ![65536, 512, 2]⟩
abbrev S65536 : Shape := ⟨1, ![65536]⟩

abbrev nBuf : Space → Nat
  | .hbm => 74
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S512x64, .f32⟩
  | .hbm, ⟨2, _⟩ => ⟨S_, .f32⟩
  | .hbm, ⟨3, _⟩ => ⟨S65536x512, .f32⟩
  | .hbm, ⟨4, _⟩ => ⟨S65536x512, .f32⟩
  | .hbm, ⟨5, _⟩ => ⟨S_, .f32⟩
  | .hbm, ⟨6, _⟩ => ⟨S65536x512, .f32⟩
  | .hbm, ⟨7, _⟩ => ⟨S65536x512, .f32⟩
  | .hbm, ⟨8, _⟩ => ⟨S_, .f32⟩
  | .hbm, ⟨9, _⟩ => ⟨S65536x512, .f32⟩
  | .hbm, ⟨10, _⟩ => ⟨S65536x512, .f32⟩
  | .hbm, ⟨11, _⟩ => ⟨S65536x512, .f32⟩
  | .hbm, ⟨12, _⟩ => ⟨S65536x512, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S65536x512, .i32⟩
  | .hbm, ⟨17, _⟩ => ⟨S65536x512, .i32⟩
  | .hbm, ⟨18, _⟩ => ⟨S_, .i32⟩
  | .hbm, ⟨19, _⟩ => ⟨S65536x512, .i32⟩
  | .hbm, ⟨20, _⟩ => ⟨S65536x512, .i32⟩
  | .hbm, ⟨21, _⟩ => ⟨S65536x512, .f32⟩
  | .hbm, ⟨22, _⟩ => ⟨S65536x512, .f32⟩
  | .hbm, ⟨23, _⟩ => ⟨S_, .f32⟩
  | .hbm, ⟨24, _⟩ => ⟨S65536x512, .f32⟩
  | .hbm, ⟨25, _⟩ => ⟨S65536x512, .f32⟩
  | .hbm, ⟨26, _⟩ => ⟨S512, .i32⟩
  | .hbm, ⟨27, _⟩ => ⟨S1x512, .i32⟩
  | .hbm, ⟨28, _⟩ => ⟨S_, .i32⟩
  | .hbm, ⟨29, _⟩ => ⟨S1x512, .i32⟩
  | .hbm, ⟨30, _⟩ => ⟨S1x512, .i1⟩
  | .hbm, ⟨31, _⟩ => ⟨S_, .i32⟩
  | .hbm, ⟨32, _⟩ => ⟨S1x512, .i32⟩
  | .hbm, ⟨33, _⟩ => ⟨S1x512, .i32⟩
  | .hbm, ⟨34, _⟩ => ⟨S1x512, .i32⟩
  | .hbm, ⟨35, _⟩ => ⟨S_, .i32⟩
  | .hbm, ⟨36, _⟩ => ⟨S65536x512, .i32⟩
  | .hbm, ⟨37, _⟩ => ⟨S65536x512, .i1⟩
  | .hbm, ⟨38, _⟩ => ⟨S_, .i32⟩
  | .hbm, ⟨39, _⟩ => ⟨S65536x512, .i32⟩
  | .hbm, ⟨40, _⟩ => ⟨S65536x512, .i32⟩
  | .hbm, ⟨41, _⟩ => ⟨S65536x512, .i32⟩
  | .hbm, ⟨42, _⟩ => ⟨S65536x512, .i32⟩
  | .hbm, ⟨43, _⟩ => ⟨S65536x512x1, .i32⟩
  | .hbm, ⟨44, _⟩ => ⟨S65536x512x1, .i32⟩
  | .hbm, ⟨45, _⟩ => ⟨S65536x512x2, .i32⟩
  | .hbm, ⟨46, _⟩ => ⟨S65536x512, .f32⟩
  | .hbm, ⟨47, _⟩ => ⟨S_, .i32⟩
  | .hbm, ⟨48, _⟩ => ⟨S65536x512, .i32⟩
  | .hbm, ⟨49, _⟩ => ⟨S65536x512, .i32⟩
  | .hbm, ⟨50, _⟩ => ⟨S_, .i32⟩
  | .hbm, ⟨51, _⟩ => ⟨S1x512, .i32⟩
  | .hbm, ⟨52, _⟩ => ⟨S1x512, .i1⟩
  | .hbm, ⟨53, _⟩ => ⟨S_, .i32⟩
  | .hbm, ⟨54, _⟩ => ⟨S1x512, .i32⟩
  | .hbm, ⟨55, _⟩ => ⟨S1x512, .i32⟩
  | .hbm, ⟨56, _⟩ => ⟨S1x512, .i32⟩
  | .hbm, ⟨57, _⟩ => ⟨S_, .i32⟩
  | .hbm, ⟨58, _⟩ => ⟨S65536x512, .i32⟩
  | .hbm, ⟨59, _⟩ => ⟨S65536x512, .i1⟩
  | .hbm, ⟨60, _⟩ => ⟨S_, .i32⟩
  | .hbm, ⟨61, _⟩ => ⟨S65536x512, .i32⟩
  | .hbm, ⟨62, _⟩ => ⟨S65536x512, .i32⟩
  | .hbm, ⟨63, _⟩ => ⟨S65536x512, .i32⟩
  | .hbm, ⟨64, _⟩ => ⟨S65536x512, .i32⟩
  | .hbm, ⟨65, _⟩ => ⟨S65536x512x1, .i32⟩
  | .hbm, ⟨66, _⟩ => ⟨S65536x512x1, .i32⟩
  | .hbm, ⟨67, _⟩ => ⟨S65536x512x2, .i32⟩
  | .hbm, ⟨68, _⟩ => ⟨S65536x512, .f32⟩
  | .hbm, ⟨69, _⟩ => ⟨S65536x512, .f32⟩
  | .hbm, ⟨70, _⟩ => ⟨S65536x512, .f32⟩
  | .hbm, ⟨71, _⟩ => ⟨S65536x512, .f32⟩
  | .hbm, ⟨72, _⟩ => ⟨S_, .f32⟩
  | .hbm, ⟨73, _⟩ => ⟨S65536, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_c_4 : Ref sig .tc := ⟨.hbm, 28, rfl⟩
abbrev main_v15 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_6 : Ref sig .tc := ⟨.hbm, 35, rfl⟩
abbrev main_v20 : Ref sig .tc := ⟨.hbm, 36, rfl⟩
abbrev main_v21 : Ref sig .tc := ⟨.hbm, 37, rfl⟩
abbrev main_c_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_c_9 : Ref sig .tc := ⟨.hbm, 50, rfl⟩
abbrev main_v32 : Ref sig .tc := ⟨.hbm, 51, rfl⟩
abbrev main_v33 : Ref sig .tc := ⟨.hbm, 52, rfl⟩
abbrev main_c_10 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_11 : Ref sig .tc := ⟨.hbm, 57, rfl⟩
abbrev main_v37 : Ref sig .tc := ⟨.hbm, 58, rfl⟩
abbrev main_v38 : Ref sig .tc := ⟨.hbm, 59, rfl⟩
abbrev main_c_12 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S65536x512 : S_.BroadcastsInDim S65536x512 (![] : Fin 0 → Fin S65536x512.rank)
  bcast_S512_S1x512_1 : S512.BroadcastsInDim S1x512 (![1] : Fin 1 → Fin S1x512.rank)
  bcast_S_S1x512 : S_.BroadcastsInDim S1x512 (![] : Fin 0 → Fin S1x512.rank)
  bcast_S1x512_S65536x512_0_1 : S1x512.BroadcastsInDim S65536x512 (![0, 1] : Fin 2 → Fin S65536x512.rank)
  bcast_S65536x512_S65536x512x1_0_1 : S65536x512.BroadcastsInDim S65536x512x1 (![0, 1] : Fin 2 → Fin S65536x512x1.rank)
  concatenates_S65536x512x1_S65536x512x1_S65536x512x2_d2 : Shape.Concatenates [S65536x512x1, S65536x512x1] S65536x512x2 2
  reducesTo_S65536x512_S65536_d1 : S65536x512.ReducesTo [1] S65536
  h_S_ : 0 < S_.numel
  gather_S512x64_S65536x512x2_S65536x512_n_01_n_n_01_2_11_wf : GatherDims.WF S512x64 S65536x512x2 S65536x512 [] [0, 1] [] [0, 1] [] 2 ![1, 1]

variable [Facts₀]

def gather_S512x64_S65536x512x2_S65536x512_n_01_n_n_01_2_11 : GatherDims S512x64 S65536x512x2 S65536x512 where
  offsetDims := []
  collapsedSliceDims := [0, 1]
  operandBatchingDims := []
  startIndicesBatchingDims := []
  startIndexMap := [0, 1]
  indexVectorDim := 2
  sliceSizes := ![1, 1]
  wf := gather_S512x64_S65536x512x2_S65536x512_n_01_n_n_01_2_11_wf

class Facts : Prop extends Facts₀ where

variable [Facts]
-- ==== Proof.Spec.lean ====
/-
  The mathematics both programs compute, stated once over plain index functions.

  A piecewise-linear spline with 64 knots on [-3, 3] per feature: an input value is moved to the knot
  coordinate t, the segment number is floor(t) clamped to 0..62, the position inside the segment is
  t minus the segment number, and the feature's value is the line through the two knot coefficients
  of that segment; a batch row's result is the sum of its 512 features' values.

  The kernel forms t as (x - (-3)) * 10.5 and the line as  lo + w * (hi - lo);
  the reference forms t as (x - (-3)) / 6 * 63 and the line as  (1 - w) * lo + w * hi.
-/
import Idealize.ShloMosaic.PureOps.Ideal
import Idealize.ShloMosaic.Lib.ValueIdx

noncomputable section

namespace Cert.Spline

open Idealize.ShloMosaic Idealize.ShloMosaic.ValueIdx

/-- The knot coordinate as the kernel forms it: (x - (-3)) * 10.5. -/
def tK (x : EReal) : EReal :=
  (x - Ideal.ofBits .f32 0xC0400000#32) * Ideal.ofBits .f32 0x41280000#32

/-- The knot coordinate as the reference forms it: (x - (-3)) / 6 * 63. -/
def tR (x : EReal) : EReal :=
  Ideal.div (x - Ideal.ofBits .f32 0xC0400000#32) (Ideal.ofBits .f32 0x40C00000#32) * Ideal.ofBits .f32 0x427C0000#32

/-- The segment a knot coordinate falls in, as the 32-bit word both programs compute: the floor, converted
    to a signed word, clamped below by 0 and above by 62. -/
def seg (t : EReal) : BitVec 32 :=
  IntOp.minsi 62#32 (IntOp.maxsi 0#32 (Ideal.fptosi 32 (Ideal.liftRound Int.floor t)))

/-- The position inside the segment: the coordinate minus the segment number. -/
def frac (t : EReal) : EReal := t - (((seg t).toInt : ℝ) : EReal)

/-- A word clamped to [0, 62] reads, signed, as a number in that range. -/
theorem clamp_range (z : BitVec 32) :
    0 ≤ (IntOp.minsi 62#32 (IntOp.maxsi 0#32 z)).toInt ∧ (IntOp.minsi 62#32 (IntOp.maxsi 0#32 z)).toInt ≤ 62 := by
  unfold IntOp.minsi IntOp.maxsi
  simp only [BitVec.slt]
  have h62 : (62#32 : BitVec 32).toInt = 62 := by decide
  have h0 : (0#32 : BitVec 32).toInt = 0 := by decide
  split_ifs with h1 h2 h2
  all_goals simp only [decide_eq_true_eq, h62, h0] at *
  all_goals omega

theorem seg_nonneg (t : EReal) : 0 ≤ (seg t).toInt := (clamp_range _).1
theorem seg_le (t : EReal) : (seg t).toInt ≤ 62 := (clamp_range _).2

/-- The segment number as a natural number. -/
theorem seg_toNat_lt (t : EReal) : (seg t).toNat < 63 := by
  have h0 := seg_nonneg t
  have h1 := seg_le t
  have := BitVec.toInt_eq_toNat_of_msb (x := seg t)
  rcases hm : (seg t).msb with _ | _
  · rw [BitVec.toInt_eq_toNat_of_msb hm] at h1; omega
  · have := BitVec.toInt_neg_of_msb_true hm; omega

/-- The segment number as an index of the 63 segments. -/
def segN (t : EReal) : Fin 63 := ⟨(seg t).toNat, seg_toNat_lt t⟩

theorem seg_eq_ofNat (t : EReal) : seg t = BitVec.ofNat 32 (segN t).val := by
  apply BitVec.eq_of_toNat_eq
  show (seg t).toNat = (BitVec.ofNat 32 (seg t).toNat).toNat
  rw [BitVec.toNat_ofNat, Nat.mod_eq_of_lt (seg t).isLt]

theorem seg_toInt (t : EReal) : (seg t).toInt = ((segN t).val : Int) := by
  have h0 := seg_nonneg t
  rcases hm : (seg t).msb with _ | _
  · rw [BitVec.toInt_eq_toNat_of_msb hm]; rfl
  · have := BitVec.toInt_neg_of_msb_true hm; omega

/-- One feature's value the kernel's way: the lower knot coefficient plus the position times the slope. -/
def kterm (t : EReal) (row : Fin 64 → EReal) : EReal :=
  row (segN t).castSucc + frac t * (row (segN t).succ - row (segN t).castSucc)

/-- One feature's value the reference's way: the two knot coefficients weighted by 1 - w and w. -/
def rterm (t : EReal) (row : Fin 64 → EReal) : EReal :=
  (Ideal.ofBits .f32 0x3F800000#32 - frac t) * row (segN t).castSucc + frac t * row (segN t).succ

/-- What one grid step leaves in its output block, from its block of inputs (2048 batch rows), the coefficient
    table with the knot axis first, and the slope table laid out the same way: per row, the sum over the features of
    coefficient plus position times slope, both read at the segment's row. -/
def blockOut (x0 : (⟨2, ![2048, 512]⟩ : Shape).Idx → EReal) (x1 x2 : (⟨2, ![64, 512]⟩ : Shape).Idx → EReal) :
    (⟨2, ![2048, 1]⟩ : Shape).Idx → EReal :=
  fun y => ∑ f : Fin 512,
    (x1 (ix2 (segN (tK (x0 (ix2 ⟨(y 0).val, (y 0).isLt⟩ f)))).castSucc f)
      + frac (tK (x0 (ix2 ⟨(y 0).val, (y 0).isLt⟩ f))) * x2 (ix2 (segN (tK (x0 (ix2 ⟨(y 0).val, (y 0).isLt⟩ f)))).castSucc f))

/-- The kernel's result as one function of the input and the coefficient table. -/
def Gk (x : (⟨2, ![65536, 512]⟩ : Shape).Idx → EReal) (c : (⟨2, ![512, 64]⟩ : Shape).Idx → EReal) :
    (⟨1, ![65536]⟩ : Shape).Idx → EReal :=
  fun i => ∑ f : Fin 512, kterm (tK (x (ix2 ⟨(i 0).val, (i 0).isLt⟩ f))) (fun k => c (ix2 f k))

/-- The reference's result as one function of the input and the coefficient table: the sum starts from the
    zero word. -/
def Gr (x : (⟨2, ![65536, 512]⟩ : Shape).Idx → EReal) (c : (⟨2, ![512, 64]⟩ : Shape).Idx → EReal) :
    (⟨1, ![65536]⟩ : Shape).Idx → EReal :=
  fun i => Ideal.ofBits .f32 0x00000000#32
    + ∑ f : Fin 512, rterm (tR (x (ix2 ⟨(i 0).val, (i 0).isLt⟩ f))) (fun k => c (ix2 f k))

end Cert.Spline

end
-- ==== Proof.Chain.lean ====
/-
  A running sum over the segments 0, 1, ..., N-1 that adds a segment's line only where the segment word equals that
  segment's number adds exactly one line: the one of the segment the word names (or nothing, if it names none below N).
-/
import Idealize.ShloMosaic.PureOps.Ideal
import Idealize.ShloMosaic.PureOps.Ideal.Laws

noncomputable section

namespace Cert.Spline

open Idealize.ShloMosaic

/-- One step of the running sum: the sum so far plus, where the segment word `n` is `k`, the line
    `c + w * s`, and the zero word elsewhere. -/
def stepE (n : BitVec 32) (w : EReal) (k : BitVec 32) (c s acc : EReal) : EReal :=
  acc + Scalar.select (IntOp.cmpi .eq n k) (c + w * s) (Ideal.ofBits .f32 0x00000000#32)

/-- The first `N` steps, from the zero word; segment `k` has coefficient `C k` and slope `S k`. -/
def chainTo (n : BitVec 32) (w : EReal) (C S : ℕ → EReal) : ℕ → EReal
  | 0 => Ideal.ofBits .f32 0x00000000#32
  | N + 1 => stepE n w (BitVec.ofNat 32 N) (C N) (S N) (chainTo n w C S N)

theorem cmpi_eq_ofNat (n : BitVec 32) (N : ℕ) (hN : N < 2 ^ 32) :
    IntOp.cmpi .eq n (BitVec.ofNat 32 N) = if n.toNat = N then 1#1 else 0#1 := by
  unfold IntOp.cmpi
  by_cases h : n.toNat = N
  · have e : n = BitVec.ofNat 32 N := by
      apply BitVec.eq_of_toNat_eq; rw [BitVec.toNat_ofNat, Nat.mod_eq_of_lt hN]; exact h
    rw [if_pos h, e]; simp
  · have e : (n == BitVec.ofNat 32 N) = false := by
      rw [beq_eq_false_iff_ne]
      intro e; apply h; rw [e, BitVec.toNat_ofNat, Nat.mod_eq_of_lt hN]
    rw [if_neg h]
    show BitVec.ofBool (n == BitVec.ofNat 32 N) = 0#1
    rw [e]; rfl

/-- One more step adds segment `N`'s line exactly where the word is `N`. -/
theorem chainTo_succ (n : BitVec 32) (w : EReal) (C S : ℕ → EReal) (N : ℕ) (hN : N < 2 ^ 32) :
    chainTo n w C S (N + 1) = chainTo n w C S N + (if n.toNat = N then C N + w * S N else 0) := by
  show stepE n w (BitVec.ofNat 32 N) (C N) (S N) (chainTo n w C S N) = _
  unfold stepE
  rw [cmpi_eq_ofNat n N hN, Ideal.ofBits_zero_f32]
  by_cases h : n.toNat = N
  · rw [if_pos h, if_pos h]; exact congrArg (_ + ·) (if_pos rfl)
  · rw [if_neg h, if_neg h]; exact congrArg (_ + ·) (if_neg (by decide))

/-- The running sum after `N` steps is the one live line. -/
theorem chainTo_eq (n : BitVec 32) (w : EReal) (C S : ℕ → EReal) (N : ℕ) (hN : N ≤ 2 ^ 32) :
    chainTo n w C S N = if n.toNat < N then C n.toNat + w * S n.toNat else 0 := by
  induction N with
  | zero => simp [chainTo]
  | succ N ih =>
    rw [chainTo_succ n w C S N (by omega), ih (by omega)]
    by_cases h : n.toNat = N
    · rw [if_pos h, if_neg (show ¬ n.toNat < N by omega), if_pos (show n.toNat < N + 1 by omega), zero_add, h]
    · rw [if_neg h, add_zero]
      by_cases h2 : n.toNat < N
      · rw [if_pos h2, if_pos (show n.toNat < N + 1 by omega)]
      · rw [if_neg h2, if_neg (show ¬ n.toNat < N + 1 by omega)]

end Cert.Spline

end
-- ==== Proof.KPayload.lean ====
/-
  What one grid step of the kernel leaves in its output block is the spline's block function.

  The body forms, for every (batch row, feature) of its input block, the knot coordinate t, the segment word
  n = clamp(floor t) and the position w = t - n; then it runs over the 63 segments k = 0..62 and adds
  coefficient[k] + w * slope[k] wherever n = k, and the zero word elsewhere; the block's result is the sum of that
  running sum over the 512 features. Exactly one segment is live at each place, so the running sum is
  coefficient[n] + w * slope[n].
-/
import proofs.«154092_j83588653515336_1_alg».proof.Proof.Gen.KernelIdeal.Frame
import proofs.«154092_j83588653515336_1_alg».proof.Proof.Spec
import proofs.«154092_j83588653515336_1_alg».proof.Proof.Chain
import Idealize.ShloMosaic.Lib.ValueLayout
import Idealize.ShloMosaic.Lib.Pipeline.Value
import Idealize.ShloMosaic.PureOps.Ideal.Laws

set_option maxRecDepth 16384

noncomputable section

namespace Cert.KernelIdeal.KValue

open Cert.KernelIdeal Cert.KernelIdeal.Gen
open Idealize.ShloMosaic Idealize.ShloMosaic.ValueIdx

theorem zero_off_2048x1 : (![0, 0] : Fin S2048x1.rank → ℕ) = fun _ => 0 := by
  funext a; match a with | ⟨0, _⟩ => rfl | ⟨1, _⟩ => rfl
theorem zero_off_2048x512 : (![0, 0] : Fin S2048x512.rank → ℕ) = fun _ => 0 := by
  funext a; match a with | ⟨0, _⟩ => rfl | ⟨1, _⟩ => rfl

/-- Row `k` of a table with the knot axis first, taken as a one-row block: its entry `f` sits at (k, f). -/
theorem row_idx (k : ℕ) (inb : ∀ a, (![k, 0] : Fin S64x512.rank → ℕ) a + S1x512.size a ≤ S64x512.size a) (f : Fin 512) :
    (Rect.unit (s := S64x512) ![k, 0] S1x512.size inb).toLoadRect.idx (ix2 (0 : Fin 1) f) = ix2 (Fin.ofNat 64 k) f := by
  have hk : k < 64 := by have := inb 0; change k + 1 ≤ 64 at this; omega
  refine funext fun a => Fin.ext ?_
  match a with
  | ⟨0, _⟩ => show k + 1 * 0 = k % 64; rw [Nat.mod_eq_of_lt hk]; omega
  | ⟨1, _⟩ => show 0 + 1 * f.val = f.val; omega

/-- The lane sum kept as a unit column: entry (b, 0) is the sum of row b over the 512 features. -/
theorem rowsum_apply (v : FVec Ideal S2048x512 .f32) (b : Fin 2048) :
    shapeCast S2048x1 (multiReduction .add [1] S2048 v 0x00000000#32 reduces_S2048x512_S2048 (.inl rfl) rfl)
        shapeCasts_S2048_S2048x1 (ix2 b (0 : Fin 1))
      = ∑ f : Fin 512, v (ix2 b f) := by
  rw [shapeCast_apply _ shapeCasts_S2048_S2048x1 (ix2 b (0 : Fin 1)) (ix1 b)
    (by rw [Shape.rowMajor_val_one, Shape.rowMajor_val_two]; show b.val = b.val * 1 + 0; omega)]
  refine (Ideal.multiReduction_add_single v 0x00000000#32 reduces_S2048x512_S2048 (.inl rfl) rfl (ix1 b)).trans ?_
  refine Finset.sum_congr rfl fun f _ => congrArg v (funext fun a => Fin.ext ?_)
  match a with
  | ⟨0, _⟩ => rfl
  | ⟨1, _⟩ => rfl

/-! The pointwise operations of the body read at an index. -/
theorem floor_at {s : Shape} (x : FVec Ideal s .f32) (i : s.Idx) : floor x i = FloatOps.floor (x i) := rfl
theorem fptosi_at {s : Shape} (x : FVec Ideal s .f32) (i : s.Idx) : fptosi 32 x i = FloatOps.fptosi 32 (x i) := rfl
theorem maxsi_at {s : Shape} (x y : IVec s 32) (i : s.Idx) : maxsi x y i = IntOp.maxsi (x i) (y i) := rfl
theorem minsi_at {s : Shape} (x y : IVec s 32) (i : s.Idx) : minsi x y i = IntOp.minsi (x i) (y i) := rfl
theorem cmpi_at {s : Shape} (p : CmpIPredicate) (x y : IVec s 32) (i : s.Idx) : cmpi p x y i = IntOp.cmpi p (x i) (y i) := rfl

/-- The segment word read as a row number of a 64-row table is the segment's lower knot. -/
theorem ofNat_seg (t : EReal) : Fin.ofNat 64 (Cert.Spline.seg t).toNat = (Cert.Spline.segN t).castSucc :=
  Fin.ext (Nat.mod_eq_of_lt (by have := Cert.Spline.seg_toNat_lt t; omega))

set_option maxHeartbeats 4000000 in
/-- The body's one store, over its three input blocks, is `Cert.Spline.blockOut` of them: at (batch row, feature) the
    63 masked steps are the running sum `chainTo` of the segment word and the position, whose value is the live
    segment's line. -/
theorem out0_3_eq (x0 : Vec Ideal S2048x512 .f32) (x1 x2 : Vec Ideal S64x512 .f32) :
    out0_3 (F := Ideal) x0 x1 x2 = Cert.Spline.blockOut x0 x1 x2 := by
  funext y
  obtain ⟨b, z, rfl⟩ : ∃ (b : Fin 2048) (z : Fin 1), y = ix2 b z := ⟨y 0, y 1, eq_ix2 y⟩
  obtain rfl : z = 0 := Subsingleton.elim _ _
  unfold out0_3
  rw [View.canon_unit_zero zero_off_2048x1]
  simp only [View.ld_unit_zero (S := S2048x512) zero_off_2048x512]
  unfold k0_pay1
  refine (rowsum_apply _ b).trans ?_
  refine (Finset.sum_congr rfl fun f _ => (?_ : _ = Cert.Spline.chainTo
      (Cert.Spline.seg (Cert.Spline.tK (x0 (ix2 b f)))) (Cert.Spline.frac (Cert.Spline.tK (x0 (ix2 b f))))
      (fun k => x1 (ix2 (Fin.ofNat 64 k) f)) (fun k => x2 (ix2 (Fin.ofNat 64 k) f)) 63)).trans ?_
  · simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, addf_apply, mulf_apply, subf_apply, select_apply, broadcast_apply, sitofp_apply,
      floor_at, fptosi_at, maxsi_at, minsi_at, cmpi_at]
    simp only [shapeCast_shapeCast, broadcastTo_1b_ab_apply, View.ld, row_idx]
    rfl
  · show _ = ∑ f : Fin 512, (x1 (ix2 (Cert.Spline.segN (Cert.Spline.tK (x0 (ix2 b f)))).castSucc f)
        + Cert.Spline.frac (Cert.Spline.tK (x0 (ix2 b f))) * x2 (ix2 (Cert.Spline.segN (Cert.Spline.tK (x0 (ix2 b f)))).castSucc f))
    refine Finset.sum_congr rfl fun f _ => ?_
    rw [Cert.Spline.chainTo_eq _ _ _ _ 63 (by norm_num), if_pos (Cert.Spline.seg_toNat_lt _), ofNat_seg]

end Cert.KernelIdeal.KValue

end
-- ==== Proof.KHost.lean ====
/-
  The two tables the kernel's program prepares before the launch, read at an entry: the coefficient table with the
  knot axis first, and the table of slopes (next knot's coefficient minus this knot's), one zero row appended.
-/
import proofs.«154092_j83588653515336_1_alg».proof.Proof.Gen.KernelIdeal.Frame
import proofs.«154092_j83588653515336_1_alg».proof.Proof.Spec
import Idealize.ShloMosaic.Lib.StableHlo.Run
import Idealize.ShloMosaic.Lib.ValueLayout
import Idealize.ShloMosaic.Lib.KernelVsHost

noncomputable section

namespace Cert.KernelIdeal.KValue

open Cert.KernelIdeal Cert.KernelIdeal.Gen
open Idealize.ShloMosaic Idealize.ShloMosaic.ValueIdx Idealize.SL.Sem

variable (m : (ℓ : Loc nD τ sig) → Buf (Elt Ideal) ℓ)

/-- The coefficient table as launched, feature first and knot second, as a plain function of its index. -/
abbrev coef (c : Dev nD) : S512x64.Idx → EReal := m ((c.tc : Thread nD τ).loc main_arg1)

/-- The coefficient table with its two axes exchanged: knot first, feature second. -/
abbrev knotFirst (c : Dev nD) : S64x512.Idx → EReal :=
  transpose S64x512 [1, 0] (coef m c) transposes_S512x64_S64x512_1_0

/-- The first table the launch reads is the coefficient table with the knot axis first. -/
theorem V_v0_eq (c : Dev nD) : (V m c main_v0 : S64x512.Idx → EReal) = knotFirst m c := by
  dsimp only [Gen.V, Gen.V0]
  simp only [Gen.hostOps0, Gen.hostOps0_1, List.flatten_cons, List.flatten_nil, List.append_nil, List.cons_append,
    List.nil_append]
  after_results

/-- The second table: rows 1..63 of the knot-first table minus rows 0..62, then one row of the converted zero word
    appended below. -/
theorem V_v4_eq (c : Dev nD) :
    (V m c main_v4 : S64x512.Idx → EReal)
      = pad S64x512 ![0, 0] ![1, 0] ![0, 0]
          (subf (F := Ideal) (extractStridedSlice S63x512 ![1, 0] (knotFirst m c) slices_S64x512_S63x512_1_0)
            (extractStridedSlice S63x512 ![0, 0] (knotFirst m c) slices_S64x512_S63x512_0_0))
          (sitofp (F := Ideal) .f32 (constantI S_ 32 0#32)) pads_S63x512_S64x512_010_000 h_S_ := by
  dsimp only [Gen.V, Gen.V0]
  simp only [Gen.hostOps0, Gen.hostOps0_1, List.flatten_cons, List.flatten_nil, List.append_nil, List.cons_append,
    List.nil_append]
  after_results
  rfl

/-- The transposed table at (knot k, feature f) is the coefficient table at (f, k). -/
theorem V_v0_apply (c : Dev nD) (k : Fin 64) (f : Fin 512) :
    (V m c main_v0 : S64x512.Idx → EReal) (ix2 k f) = (m ((c.tc : Thread nD τ).loc main_arg1) : S512x64.Idx → EReal) (ix2 f k) := by
  rw [V_v0_eq]
  exact transpose_ix2_apply _ _ k f

/-- The slope table at (segment k, feature f), k one of the 63 segments, is the difference of the two knot coefficients. -/
theorem V_v4_apply (c : Dev nD) (k : Fin 63) (f : Fin 512) :
    (V m c main_v4 : S64x512.Idx → EReal) (ix2 k.castSucc f)
      = coef m c (ix2 f k.succ) - coef m c (ix2 f k.castSucc) := by
  rw [V_v4_eq]
  -- row k < 63 lies inside the unpadded part: the padded table there is the difference table at (k, f)
  refine (pad_apply_of_inside _ _ _ _ _ _ _ (ix2 k.castSucc f) (ix2 k f) (fun a => ?_)).trans ?_
  · match a with
    | ⟨0, _⟩ => show k.val = 0 + k.val * (0 + 1); omega
    | ⟨1, _⟩ => show f.val = 0 + f.val * (0 + 1); omega
  rw [subf_apply]
  -- the two row bands: rows from 1 and rows from 0 of the knot-first table
  refine congrArg₂ (· - ·) ?_ ?_
  · refine (slice2_axis0_apply 1 _ _ k f k.succ (by show k.val + 1 = 1 + k.val; omega)).trans ?_
    exact transpose_ix2_apply _ _ k.succ f
  · refine (slice2_axis0_apply 0 _ _ k f k.castSucc (by show k.val = 0 + k.val; omega)).trans ?_
    exact transpose_ix2_apply _ _ k.castSucc f

end Cert.KernelIdeal.KValue

end
-- ==== Proof.KBlocks.lean ====
/-
  From the steps' blocks to the whole result. A step's input block is 2048 consecutive batch rows of the input; its two
  tables are the whole knot-first coefficient table and the whole slope table. So what a step writes back is its 2048 rows
  of ONE function of the arguments: row r holds the sum over the 512 features of the spline value of the input at (r, f).
  The 32 steps' blocks tile the 65536 rows (row r lies in the block of step r / 2048), and the reshape that follows
  drops the unit axis. Everything here is stated given that the body's one store is the step's block function.
-/
import proofs.«154092_j83588653515336_1_alg».proof.Proof.Gen.KernelIdeal.Frame
import proofs.«154092_j83588653515336_1_alg».proof.Proof.Spec
import proofs.«154092_j83588653515336_1_alg».proof.Proof.KHost
import Idealize.ShloMosaic.Lib.Pipeline.Value
import Idealize.ShloMosaic.Lib.StableHlo.Run

-- membership in a rectangle of these extents: the elaborator's structural look recurses once per coordinate of the long axes
set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The input array as launched, batch row first and feature second, as a plain function of its index. -/
abbrev inp (c : Dev nD) : S65536x512.Idx → EReal := m ((c.tc : Thread nD τ).loc main_arg0)

/-- The result array before its unit axis is dropped: row r holds the sum over the features of the spline value of the
    input at (r, f). -/
abbrev rowSums (c : Dev nD) : S65536x1.Idx → EReal := fun i =>
  ∑ f : Fin 512, Cert.Spline.kterm (Cert.Spline.tK (inp m c (ix2 ⟨(i 0).val, (i 0).isLt⟩ f))) (fun k => coef m c (ix2 f k))

/-- The printed index maps over the grid: the input's and the result's blocks move down the batch axis with the point,
    the two tables' block stays at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One step's block function, when its input block is rows of an array A and its two tables are the knot-first
    coefficients and their differences: the row's sum of the features' spline values. -/
theorem blockOut_apply_of (x0 : Vec Ideal S2048x512 .f32) (x1 x2 : Vec Ideal S64x512 .f32)
    (A : S65536x512.Idx → EReal) (C : S512x64.Idx → EReal) (r : Fin 65536) (y : S2048x1.Idx)
    (h0 : ∀ f : Fin 512, x0 (ix2 ⟨(y 0).val, (y 0).isLt⟩ f) = A (ix2 r f))
    (h1 : ∀ (k : Fin 64) (f : Fin 512), x1 (ix2 k f) = C (ix2 f k))
    (h2 : ∀ (k : Fin 63) (f : Fin 512), x2 (ix2 k.castSucc f) = C (ix2 f k.succ) - C (ix2 f k.castSucc)) :
    Cert.Spline.blockOut x0 x1 x2 y
      = ∑ f : Fin 512, Cert.Spline.kterm (Cert.Spline.tK (A (ix2 r f))) (fun k => C (ix2 f k)) := by
  unfold Cert.Spline.blockOut Cert.Spline.kterm
  refine Finset.sum_congr rfl fun f _ => ?_
  rw [h0 f, h1, h2]

/-- The input's block at point t, at local (y, f), is the input at row 2048 t + y. -/
theorem blk0_apply (c : Dev nD) (t : Fin cfg0.N) (y : Fin 2048) (f : Fin 512) (r : Fin 65536)
    (hr : r.val = 2048 * t.val + y.val) :
    (iblk m c 0 t : Vec Ideal S2048x512 .f32) (ix2 y f) = inp m c (ix2 r f) := by
  obtain ⟨e0, e1, -⟩ := idx_facts t
  unfold iblk
  rw [View.read_apply]
  show V m c main_arg0 _ = _
  rw [V_main_arg0]
  show inp m c _ = inp m c _
  congr 1
  funext a
  apply Fin.ext
  match a with
  | ⟨0, _⟩ => show win0_0.index t (0 : Fin 2) * 2048 + 1 * y.val = r.val; rw [e0, hr]; omega
  | ⟨1, _⟩ => show win0_0.index t (1 : Fin 2) * 512 + 1 * f.val = f.val; rw [e1]; omega

/-- The coefficient window's block at any point, at (knot k, feature f), is the coefficient table at (f, k): the block
    is the whole knot-first table. -/
theorem blk1_apply (c : Dev nD) (t : Fin cfg0.N) (k : Fin 64) (f : Fin 512) :
    (iblk m c 1 t : Vec Ideal S64x512 .f32) (ix2 k f) = coef m c (ix2 f k) := by
  obtain ⟨-, -, e0, e1, -⟩ := idx_facts t
  unfold iblk
  rw [View.read_apply]
  show (V m c main_v0 : S64x512.Idx → EReal) _ = _
  refine Eq.trans (congrArg (V m c main_v0 : S64x512.Idx → EReal) ?_) (V_v0_apply m c k f)
  funext a
  apply Fin.ext
  match a with
  | ⟨0, _⟩ => show win0_1.index t (0 : Fin 2) * 64 + 1 * k.val = k.val; rw [e0]; omega
  | ⟨1, _⟩ => show win0_1.index t (1 : Fin 2) * 512 + 1 * f.val = f.val; rw [e1]; omega

/-- The slope window's block at any point, at (segment k, feature f), is the difference of the segment's two knot
    coefficients: the block is the whole slope table. -/
theorem blk2_apply (c : Dev nD) (t : Fin cfg0.N) (k : Fin 63) (f : Fin 512) :
    (iblk m c 2 t : Vec Ideal S64x512 .f32) (ix2 k.castSucc f) = coef m c (ix2 f k.succ) - coef m c (ix2 f k.castSucc) := by
  obtain ⟨-, -, -, -, e0, e1, -⟩ := idx_facts t
  unfold iblk
  rw [View.read_apply]
  show (V m c main_v4 : S64x512.Idx → EReal) _ = _
  refine Eq.trans (congrArg (V m c main_v4 : S64x512.Idx → EReal) ?_) (V_v4_apply m c k f)
  funext a
  apply Fin.ext
  match a with
  | ⟨0, _⟩ => show win0_2.index t (0 : Fin 2) * 64 + 1 * k.castSucc.val = k.castSucc.val; rw [e0]; omega
  | ⟨1, _⟩ => show win0_2.index t (1 : Fin 2) * 512 + 1 * f.val = f.val; rw [e1]; omega

/-- WHAT POINT t WRITES BACK is block t of the row sums, given that the body's one store is the step's block function. -/
theorem flushed_eq
    (hpay : ∀ (x0 : Vec Ideal S2048x512 .f32) (x1 x2 : Vec Ideal S64x512 .f32),
      out0_3 (F := Ideal) x0 x1 x2 = Cert.Spline.blockOut x0 x1 x2)
    (c : Dev nD) (t : Fin cfg0.N) :
    (dats m 0 c).flushed 3 t = ((cfg0.win 3).blk t).view.read (Elt Ideal) (rowSums m c) := by
  show (cfg0.win 3).cut (grid0.coords t) ((dats m 0 c).after 3 t) = _
  rw [after0_3, hpay]
  obtain ⟨-, -, -, -, -, -, e0, e1⟩ := idx_facts t
  funext y
  rw [View.read_apply]
  have hy : (y 0).val < 2048 := (y 0).isLt
  have ht : t.val < 32 := t.isLt
  have hr : win0_3.index t (0 : Fin 2) * 2048 + 1 * (y 0).val < 65536 := by rw [e0]; omega
  show Cert.Spline.blockOut (iblk m c 0 t) (iblk m c 1 t) (iblk m c 2 t) ((cfg0.win 3).xinj (grid0.coords t) y) = rowSums m c _
  refine (blockOut_apply_of (iblk m c 0 t) (iblk m c 1 t) (iblk m c 2 t) (inp m c) (coef m c)
    ⟨win0_3.index t (0 : Fin 2) * 2048 + 1 * (y 0).val, hr⟩ ((cfg0.win 3).xinj (grid0.coords t) y)
    (fun f => ?_) (blk1_apply m c t) (blk2_apply m c t)).trans ?_
  · exact blk0_apply m c t ⟨(y 0).val, hy⟩ f _ (by show win0_3.index t (0 : Fin 2) * 2048 + 1 * (y 0).val = 2048 * t.val + (y 0).val; rw [e0]; omega)
  · rfl

/-- An index of the result array is in point t's block iff each coordinate is in the block's range on its axis. -/
theorem mem_blk (t : Fin cfg0.N) (i : S65536x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v5).slice (win0_3.rect t)).set ↔ _
  rw [View.set_slice_whole, Rect.mem_set_unit]
  exact Iff.rfl

/-- The blocks tile the result array: row r lies in the block of point r / 2048. -/
theorem cover (i : S65536x1.Idx) :
    ∃ t : Fin cfg0.N, (cfg0.win 3).flush t = true ∧ i ∈ ((cfg0.win 3).blk t).view.set := by
  have hi0 : (i 0).val < 65536 := (i 0).isLt
  have hi1 : (i 1).val < 1 := (i 1).isLt
  have hN : cfg0.N = 32 := N_0
  have hq : (i 0).val / 2048 < cfg0.N := by rw [hN]; omega
  refine ⟨⟨(i 0).val / 2048, hq⟩, flush0_3 _, ?_⟩
  obtain ⟨-, -, -, -, -, -, e0, e1⟩ := idx_facts ⟨(i 0).val / 2048, hq⟩
  rw [mem_blk]
  intro a
  match a with
  | ⟨0, _⟩ =>
    show win0_3.index ⟨(i 0).val / 2048, hq⟩ (0 : Fin 2) * 2048 ≤ (i 0).val ∧ (i 0).val < win0_3.index ⟨(i 0).val / 2048, hq⟩ (0 : Fin 2) * 2048 + 2048
    rw [e0]; show (i 0).val / 2048 * 2048 ≤ (i 0).val ∧ (i 0).val < (i 0).val / 2048 * 2048 + 2048; omega
  | ⟨1, _⟩ =>
    show win0_3.index ⟨(i 0).val / 2048, hq⟩ (1 : Fin 2) * 1 ≤ (i 1).val ∧ (i 1).val < win0_3.index ⟨(i 0).val / 2048, hq⟩ (1 : Fin 2) * 1 + 1
    rw [e1]; omega

/-- THE RESULT ARRAY after the launch is the row sums. -/
theorem final
    (hpay : ∀ (x0 : Vec Ideal S2048x512 .f32) (x1 x2 : Vec Ideal S64x512 .f32),
      out0_3 (F := Ideal) x0 x1 x2 = Cert.Spline.blockOut x0 x1 x2)
    (c : Dev nD) : (dats m 0 c).arrAt 3 cfg0.N = rowSums m c :=
  (dats m 0 c).arrAt_eq_of_cover 3 (rowSums m c) (fun t _ => flushed_eq m hpay c t) cover

/-- The reshape after the launch drops the unit axis: the program's result at r is the row sums at (r, 0). -/
theorem tail_eq
    (hpay : ∀ (x0 : Vec Ideal S2048x512 .f32) (x1 x2 : Vec Ideal S64x512 .f32),
      out0_3 (F := Ideal) x0 x1 x2 = Cert.Spline.blockOut x0 x1 x2)
    (c : Dev nD) :
    Pipeline.afterTail₀ cfgs (dats m) 0 (V0 m) [hostOps1] c main_v6
      = Cert.Spline.Gk (m ((c.tc : Thread nD τ).loc main_arg0)) (m ((c.tc : Thread nD τ).loc main_arg1)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = rowSums m c :=
    (Pipeline.withArrays_arr spec0 launch0.win.arr_inj c (V0 m c) (fun w => (dats m 0 c).arrAt w cfg0.N) 3).trans (final m hpay c)
  rw [hw]
  funext i
  show shapeCast S65536 (rowSums m c) shapeCasts_S65536x1_S65536 i = _
  refine (shapeCast_apply (rowSums m c) shapeCasts_S65536x1_S65536 i (ix2 ⟨(i 0).val, (i 0).isLt⟩ (0 : Fin 1)) ?_).trans ?_
  · rw [Shape.rowMajor_val_two, Shape.rowMajor_val_one]
    show (i 0).val * 1 + 0 = (i 0).val
    omega
  · rfl

end Cert.KernelIdeal.KValue

end
-- ==== Proof.KValue.lean ====
/-
  The kernel program's run: every output block is the spline's block function of its input blocks, the blocks tile the
  output array, and the reshape after the launch drops the unit axis — the result is `Cert.Spline.Gk` of the arguments.
-/
import proofs.«154092_j83588653515336_1_alg».proof.Proof.KPayload
import proofs.«154092_j83588653515336_1_alg».proof.Proof.KHost
import proofs.«154092_j83588653515336_1_alg».proof.Proof.KBlocks
import Idealize.ShloMosaic.Lib.Pipeline.Value
import Idealize.ShloMosaic.Lib.StableHlo.Run

-- the membership of a buffer among the ones no window stages is decided over the windows' arrays
set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem

/-- The idealized kernel program runs, its result array ends at the spline sum of its arguments, and the arguments
    end unchanged. The result array is no window's array: it ends as the reshape after the launch leaves it, which is
    the row sums with the unit axis dropped. The input is a window's array that is only read; the coefficient table is
    touched by no window and by no operation after the launch. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6)
          = Cert.Spline.Gk (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v6 (Pipeline.mem_restRefs_of main_v6 (by decide) (by decide))).trans (tail_eq m out0_3_eq c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KValue

end
-- ==== Proof.RefValue.lean ====
/-
  The reference program's result, one operation at a time, is the spline sum `Cert.Spline.Gr`.
  The two index tables it builds (feature number, segment number; feature number, segment number + 1) are in range,
  so the sign fix-ups leave them as they are and each gather reads the coefficient table at exactly that entry.
-/
import proofs.«154092_j83588653515336_1_alg».proof.Proof.RefReadP
import proofs.«154092_j83588653515336_1_alg».proof.Proof.Spec

noncomputable section

namespace Cert.ReferenceIdeal.RefValue

open Cert.ReferenceIdeal Cert.ReferenceIdeal.Gen Cert.ReferenceIdeal.ReadP
open Idealize.ShloMosaic Idealize.ShloMosaic.ValueIdx

/-! ## Words: a small natural number as a 32-bit word, read signed -/

/-- A natural number below 2^31, as a 32-bit word, reads signed as itself. -/
theorem toInt_ofNat_small (n : Nat) (h : n < 2147483648) : (BitVec.ofNat 32 n).toInt = (n : Int) := by
  have h1 : (BitVec.ofNat 32 n).toNat = n := by
    rw [BitVec.toNat_ofNat]; exact Nat.mod_eq_of_lt (by omega)
  rw [BitVec.toInt_eq_toNat_of_lt (by rw [h1]; omega), h1]

/-- Such a word is not below zero in the signed order. -/
theorem slt_zero_ofNat (n : Nat) (h : n < 2147483648) : IntOp.cmpi .slt (BitVec.ofNat 32 n) 0#32 = 0#1 := by
  unfold IntOp.cmpi
  simp only [BitVec.slt, toInt_ofNat_small n h]
  have h0 : (0#32 : BitVec 32).toInt = 0 := by decide
  rw [h0]
  have : ¬ ((n : Int) < 0) := by omega
  simp [this]

/-- Read signed and clamped to a bound it does not exceed, such a word is the number. -/
theorem clamp_ofNat (n m : Nat) (h : n < 2147483648) (hm : n ≤ m) : min (BitVec.ofNat 32 n).toInt.toNat m = n := by
  rw [toInt_ofNat_small n h]
  simp only [Int.toNat_natCast]
  omega

/-- Adding the word one is the word of the successor. -/
theorem ofNat_succ (n : Nat) : IntOp.addi (BitVec.ofNat 32 n) 1#32 = BitVec.ofNat 32 (n + 1) := by
  unfold IntOp.addi
  rw [BitVec.ofNat_add]

/-! ## The gather: a [512 × 64] table read at a [65536 × 512] array of (row, column) pairs -/

section Gather
variable {α : Type}

/-- The gather reads, at (p, q), the table at the pair the start indices hold there, each component read signed and
    clamped into its axis: whenever those clamped components are `a` and `b`, the entry (a, b). -/
theorem gather_read {w : Nat} (x : S512x64.Idx → α) (idx : IVec S65536x512x2 w) (p : Fin 65536) (q : Fin 512)
    (a : Fin 512) (b : Fin 64)
    (ha : min (idx (ix3 p q (0 : Fin 2))).toInt.toNat 511 = a.val)
    (hb : min (idx (ix3 p q (1 : Fin 2))).toInt.toNat 63 = b.val) :
    Host.gather gather_S512x64_S65536x512x2_S65536x512_n_01_n_n_01_2_11 x idx (ix2 p q) = x (ix2 a b) := by
  unfold Host.gather
  congr 1
  funext r
  refine Fin.ext ?_
  match r with
  | ⟨0, _⟩ =>
    show GatherDims.start _ (ix2 p q) idx 0 + GatherDims.batchCoord _ (ix2 p q) 0 + GatherDims.offCoord _ (ix2 p q) 0 = a.val
    rw [GatherDims.batchCoord_eq_zero _ _ _ List.not_mem_nil,
      GatherDims.offCoord_eq_zero _ _ _ (fun h => ((GatherDims.mem_sKept _ _).mp h).1
        (by show _ ∈ ([0, 1] : List (Fin 2)); decide))]
    simp only [Nat.add_zero]
    unfold GatherDims.start
    rw [dif_pos (by show _ ∈ ([0, 1] : List (Fin 2)); decide), ← ha]
    have hsi : GatherDims.siIdx gather_S512x64_S65536x512x2_S65536x512_n_01_n_n_01_2_11 (ix2 p q)
        ⟨List.idxOf (0 : Fin 2) [0, 1], by decide⟩ = ix3 p q (0 : Fin 2) := by
      funext c; refine Fin.ext ?_
      match c with
      | ⟨0, _⟩ => rfl
      | ⟨1, _⟩ => rfl
      | ⟨2, _⟩ => rfl
    exact congrArg (fun k => min (idx k).toInt.toNat 511) hsi
  | ⟨1, _⟩ =>
    show GatherDims.start _ (ix2 p q) idx 1 + GatherDims.batchCoord _ (ix2 p q) 1 + GatherDims.offCoord _ (ix2 p q) 1 = b.val
    rw [GatherDims.batchCoord_eq_zero _ _ _ List.not_mem_nil,
      GatherDims.offCoord_eq_zero _ _ _ (fun h => ((GatherDims.mem_sKept _ _).mp h).1
        (by show _ ∈ ([0, 1] : List (Fin 2)); decide))]
    simp only [Nat.add_zero]
    unfold GatherDims.start
    rw [dif_pos (by show _ ∈ ([0, 1] : List (Fin 2)); decide), ← hb]
    have hsi : GatherDims.siIdx gather_S512x64_S65536x512x2_S65536x512_n_01_n_n_01_2_11 (ix2 p q)
        ⟨List.idxOf (1 : Fin 2) [0, 1], by decide⟩ = ix3 p q (1 : Fin 2) := by
      funext c; refine Fin.ext ?_
      match c with
      | ⟨0, _⟩ => rfl
      | ⟨1, _⟩ => rfl
      | ⟨2, _⟩ => rfl
    exact congrArg (fun k => min (idx k).toInt.toNat 63) hsi

/-- The joined index table at (p, q, 0) is the first piece at (p, q, 0). -/
theorem concat_read0 (u v : S65536x512x1.Idx → α) (p : Fin 65536) (q : Fin 512) :
    concatenate S65536x512x2 2 [⟨S65536x512x1, u⟩, ⟨S65536x512x1, v⟩] concatenates_S65536x512x1_S65536x512x1_S65536x512x2_d2
        (ix3 p q (0 : Fin 2)) = u (ix3 p q (0 : Fin 1)) :=
  concatenate_pair_apply_left 2 u v _ (ix3 p q (0 : Fin 2)) rfl (ix3 p q (0 : Fin 1)) (fun c =>
    match c with
    | ⟨0, _⟩ => rfl
    | ⟨1, _⟩ => rfl
    | ⟨2, _⟩ => rfl)

/-- The joined index table at (p, q, 1) is the second piece at (p, q, 0). -/
theorem concat_read1 (u v : S65536x512x1.Idx → α) (p : Fin 65536) (q : Fin 512) :
    concatenate S65536x512x2 2 [⟨S65536x512x1, u⟩, ⟨S65536x512x1, v⟩] concatenates_S65536x512x1_S65536x512x1_S65536x512x2_d2
        (ix3 p q (1 : Fin 2)) = v (ix3 p q (0 : Fin 1)) :=
  concatenate_pair_apply_right 2 u v _ (ix3 p q (1 : Fin 2)) rfl rfl (ix3 p q (0 : Fin 1)) (fun c hc =>
    match c, hc with
    | ⟨0, _⟩, _ => rfl
    | ⟨1, _⟩, _ => rfl
    | ⟨2, _⟩, hc => absurd rfl hc) rfl

end Gather

/-! ## The float chain at an index: knot coordinate, segment word, position, and one minus the position -/

open Cert.Spline

/-- The reference's knot coordinate at an index. -/
theorem v5_at (x : (⟨S65536x512, .f32⟩ : BufTy).Contents (Elt Ideal)) (j : S65536x512.Idx) :
    val_main_v5 (F := Ideal) x j = tR (x j) := by
  rw [val_main_v5_apply, val_main_v3_apply, val_main_v1_apply, val_main_v0_apply, val_main_v2_apply, val_main_v4_apply,
    val_main_cst_apply, val_main_cst_0_apply, val_main_cst_1_apply]
  rfl

/-- The clipped segment word at an index. -/
theorem v8_at (x : (⟨S65536x512, .f32⟩ : BufTy).Contents (Elt Ideal)) (j : S65536x512.Idx) :
    val_main_v8 (F := Ideal) x j = seg (tR (x j)) := by
  rw [val_main_v8_apply, val_main_call0_v4_apply, val_main_call0_v3_apply, val_main_c_2_apply, val_main_call0_v2_apply,
    val_main_call0_v1_apply, val_main_call0_v0_apply, val_main_c_apply, val_main_v7_apply, val_main_v6_apply, v5_at]
  rfl

/-- The segment word is the word of the segment number. -/
theorem v8_ofNat (x : (⟨S65536x512, .f32⟩ : BufTy).Contents (Elt Ideal)) (j : S65536x512.Idx) :
    val_main_v8 (F := Ideal) x j = BitVec.ofNat 32 (segN (tR (x j))).val := by
  rw [v8_at, ← seg_eq_ofNat]

/-- The position inside the segment at an index. -/
theorem v10_at (x : (⟨S65536x512, .f32⟩ : BufTy).Contents (Elt Ideal)) (j : S65536x512.Idx) :
    val_main_v10 (F := Ideal) x j = frac (tR (x j)) := by
  rw [val_main_v10_apply, val_main_v9_apply, v5_at, v8_at]
  rfl

/-- One minus the position at an index. -/
theorem v12_at (x : (⟨S65536x512, .f32⟩ : BufTy).Contents (Elt Ideal)) (j : S65536x512.Idx) :
    val_main_v12 (F := Ideal) x j = Ideal.ofBits .f32 0x3F800000#32 - frac (tR (x j)) := by
  rw [val_main_v12_apply, val_main_v11_apply, val_main_cst_3_apply, v10_at]
  rfl

/-! ## The two index tables: (feature number, segment number) and (feature number, segment number + 1) -/

/-- The feature numbers as a row: at column q, the word of q. -/
theorem v14_at (j : S1x512.Idx) : val_main_v14 (F := Ideal) j = BitVec.ofNat 32 (j 1).val := by
  rw [val_main_v14_apply, val_main_v13_apply]

/-- A feature number is not negative, so the sign fix-up keeps it (first table). -/
theorem v19_at (j : S1x512.Idx) : val_main_v19 (F := Ideal) j = BitVec.ofNat 32 (j 1).val := by
  have hlt : (j 1).val < 2147483648 := lt_trans (idx2_lt1 j) (by decide)
  rw [val_main_v19_apply, val_main_v16_apply, val_main_v15_apply, val_main_c_4_apply, v14_at, slt_zero_ofNat _ hlt,
    select_zero]

/-- A feature number is not negative, so the sign fix-up keeps it (second table). -/
theorem v36_at (j : S1x512.Idx) : val_main_v36 (F := Ideal) j = BitVec.ofNat 32 (j 1).val := by
  have hlt : (j 1).val < 2147483648 := lt_trans (idx2_lt1 j) (by decide)
  rw [val_main_v36_apply, val_main_v33_apply, val_main_v32_apply, val_main_c_9_apply, v14_at, slt_zero_ofNat _ hlt,
    select_zero]

/-- The first table's feature column at (p, q, 0). -/
theorem v26_at (p : Fin 65536) (q : Fin 512) :
    val_main_v26 (F := Ideal) (ix3 p q (0 : Fin 1)) = BitVec.ofNat 32 q.val := by
  rw [val_main_v26_apply, val_main_v25_apply, v19_at]

/-- The second table's feature column at (p, q, 0). -/
theorem v43_at (p : Fin 65536) (q : Fin 512) :
    val_main_v43 (F := Ideal) (ix3 p q (0 : Fin 1)) = BitVec.ofNat 32 q.val := by
  rw [val_main_v43_apply, val_main_v42_apply, v36_at]

/-- The segment word is not negative, so the sign fix-up keeps it. -/
theorem v24_at (x : (⟨S65536x512, .f32⟩ : BufTy).Contents (Elt Ideal)) (j : S65536x512.Idx) :
    val_main_v24 (F := Ideal) x j = BitVec.ofNat 32 (segN (tR (x j))).val := by
  have hlt : (segN (tR (x j))).val < 2147483648 := lt_trans (segN (tR (x j))).isLt (by decide)
  rw [val_main_v24_apply, val_main_v21_apply, val_main_v20_apply, val_main_c_6_apply, v8_ofNat, slt_zero_ofNat _ hlt,
    select_zero]

/-- The segment word plus one is the word of the segment number plus one; it is not negative, so the sign fix-up
    keeps it. -/
theorem v41_at (x : (⟨S65536x512, .f32⟩ : BufTy).Contents (Elt Ideal)) (j : S65536x512.Idx) :
    val_main_v41 (F := Ideal) x j = BitVec.ofNat 32 ((segN (tR (x j))).val + 1) := by
  have hlt : (segN (tR (x j))).val + 1 < 2147483648 :=
    lt_trans (Nat.succ_lt_succ (segN (tR (x j))).isLt) (by decide)
  rw [val_main_v41_apply, val_main_v38_apply, val_main_v37_apply, val_main_c_11_apply, val_main_v31_apply,
    val_main_v30_apply, val_main_c_8_apply, v8_ofNat, ofNat_succ, slt_zero_ofNat _ hlt, select_zero]

/-- The first table's segment column at (p, q, 0). -/
theorem v27_at (x : (⟨S65536x512, .f32⟩ : BufTy).Contents (Elt Ideal)) (p : Fin 65536) (q : Fin 512) :
    val_main_v27 (F := Ideal) x (ix3 p q (0 : Fin 1)) = BitVec.ofNat 32 (segN (tR (x (ix2 p q)))).val := by
  have hj : idx_main_v27 (ix3 p q (0 : Fin 1)) = ix2 p q := by
    funext a; match a with | ⟨0, _⟩ => rfl | ⟨1, _⟩ => rfl
  rw [val_main_v27_apply, hj, v24_at]

/-- The second table's segment column at (p, q, 0). -/
theorem v44_at (x : (⟨S65536x512, .f32⟩ : BufTy).Contents (Elt Ideal)) (p : Fin 65536) (q : Fin 512) :
    val_main_v44 (F := Ideal) x (ix3 p q (0 : Fin 1)) = BitVec.ofNat 32 ((segN (tR (x (ix2 p q)))).val + 1) := by
  have hj : idx_main_v44 (ix3 p q (0 : Fin 1)) = ix2 p q := by
    funext a; match a with | ⟨0, _⟩ => rfl | ⟨1, _⟩ => rfl
  rw [val_main_v44_apply, hj, v41_at]

/-! ## The two gathers read the two knot coefficients of the segment -/

/-- The first gather reads the feature's coefficient at the segment's lower knot. -/
theorem v29_at (x : (⟨S65536x512, .f32⟩ : BufTy).Contents (Elt Ideal)) (c : (⟨S512x64, .f32⟩ : BufTy).Contents (Elt Ideal))
    (p : Fin 65536) (q : Fin 512) :
    val_main_v29 (F := Ideal) x c (ix2 p q) = c (ix2 q (segN (tR (x (ix2 p q)))).castSucc) := by
  unfold val_main_v29
  refine gather_read c _ p q q (segN (tR (x (ix2 p q)))).castSucc ?_ ?_
  · unfold val_main_v28
    rw [concat_read0, v26_at]
    exact clamp_ofNat _ _ (lt_trans q.isLt (by decide)) (Nat.le_of_lt_succ q.isLt)
  · unfold val_main_v28
    rw [concat_read1, v27_at]
    exact clamp_ofNat _ _ (lt_trans (segN (tR (x (ix2 p q)))).isLt (by decide))
      (Nat.le_of_lt (segN (tR (x (ix2 p q)))).isLt)

/-- The second gather reads the feature's coefficient at the segment's upper knot. -/
theorem v46_at (x : (⟨S65536x512, .f32⟩ : BufTy).Contents (Elt Ideal)) (c : (⟨S512x64, .f32⟩ : BufTy).Contents (Elt Ideal))
    (p : Fin 65536) (q : Fin 512) :
    val_main_v46 (F := Ideal) x c (ix2 p q) = c (ix2 q (segN (tR (x (ix2 p q)))).succ) := by
  unfold val_main_v46
  refine gather_read c _ p q q (segN (tR (x (ix2 p q)))).succ ?_ ?_
  · unfold val_main_v45
    rw [concat_read0, v43_at]
    exact clamp_ofNat _ _ (lt_trans q.isLt (by decide)) (Nat.le_of_lt_succ q.isLt)
  · unfold val_main_v45
    rw [concat_read1, v44_at]
    exact clamp_ofNat _ _ (lt_trans (Nat.succ_lt_succ (segN (tR (x (ix2 p q)))).isLt) (by decide))
      (Nat.succ_le_of_lt (segN (tR (x (ix2 p q)))).isLt)

/-! ## The sum over the features -/

/-- One feature's summand is the reference's line through the two knot coefficients. -/
theorem v49_at (x : (⟨S65536x512, .f32⟩ : BufTy).Contents (Elt Ideal)) (c : (⟨S512x64, .f32⟩ : BufTy).Contents (Elt Ideal))
    (p : Fin 65536) (q : Fin 512) :
    val_main_v49 (F := Ideal) x c (ix2 p q) = rterm (tR (x (ix2 p q))) (fun k => c (ix2 q k)) := by
  rw [val_main_v49_apply, val_main_v47_apply, val_main_v48_apply, v12_at, v10_at, v29_at, v46_at]
  rfl

/-- The reference's last stage is the spline sum of its two arguments. -/
theorem ref_eq (x : (⟨S65536x512, .f32⟩ : BufTy).Contents (Elt Ideal)) (c : (⟨S512x64, .f32⟩ : BufTy).Contents (Elt Ideal)) :
    val_main_v50 (F := Ideal) x c = Cert.Spline.Gr x c := by
  funext i
  rw [val_main_v50_apply, val_main_cst_13_apply]
  refine congrArg (Ideal.ofBits .f32 0x00000000#32 + ·) (Finset.sum_congr rfl fun f _ => ?_)
  have hj : idx_main_v50 i f = ix2 (⟨(i 0).val, (i 0).isLt⟩ : Fin 65536) f := by
    funext a; match a with | ⟨0, _⟩ => rfl | ⟨1, _⟩ => rfl
  rw [hj, v49_at]

end Cert.ReferenceIdeal.RefValue

end
-- ==== Proof.Bridge.lean ====
/-
  The two ways of forming a feature's value agree on real numbers.
  With every input entry and every coefficient a real number: (x + 3) / 6 * 63 = (x + 3) * 10.5, so both
  programs find the same segment and the same position w in it, and (1 - w) * lo + w * hi = lo + w * (hi - lo);
  a sum that starts from the zero word is the sum.
-/
import proofs.«154092_j83588653515336_1_alg».proof.Proof.Spec

noncomputable section

namespace Cert.Spline

open Idealize.ShloMosaic Idealize.ShloMosaic.ValueIdx

/-! The six words, each evaluated once. -/

theorem word_neg3 : Ideal.ofBits .f32 0xC0400000#32 = ((-3 : ℝ) : EReal) := by
  simp [Ideal.ofBits, Ideal.ieee, -EReal.coe_mul]; norm_num

theorem word_10_5 : Ideal.ofBits .f32 0x41280000#32 = ((10.5 : ℝ) : EReal) := by
  simp [Ideal.ofBits, Ideal.ieee, -EReal.coe_mul]; norm_num

theorem word_6 : Ideal.ofBits .f32 0x40C00000#32 = ((6 : ℝ) : EReal) := by
  simp [Ideal.ofBits, Ideal.ieee, -EReal.coe_mul]; norm_num

theorem word_63 : Ideal.ofBits .f32 0x427C0000#32 = ((63 : ℝ) : EReal) := by
  simp [Ideal.ofBits, Ideal.ieee, -EReal.coe_mul]; norm_num

theorem word_1 : Ideal.ofBits .f32 0x3F800000#32 = ((1 : ℝ) : EReal) := by
  simp [Ideal.ofBits, Ideal.ieee, -EReal.coe_mul]; norm_num

theorem word_0 : Ideal.ofBits .f32 0x00000000#32 = ((0 : ℝ) : EReal) := by
  simp [Ideal.ofBits, Ideal.ieee]

/-- The kernel's knot coordinate of a real number is the real number (r + 3) * 10.5. -/
theorem tK_coe (r : ℝ) : tK (r : EReal) = (((r + 3) * 10.5 : ℝ) : EReal) := by
  unfold tK
  rw [word_neg3, word_10_5, ← EReal.coe_sub, ← EReal.coe_mul]
  congr 1
  ring

/-- The reference's knot coordinate of a real number is the same real number. -/
theorem tR_coe (r : ℝ) : tR (r : EReal) = (((r + 3) * 10.5 : ℝ) : EReal) := by
  unfold tR
  rw [word_neg3, word_6, word_63, Ideal.div_coe (by norm_num : (6 : ℝ) ≠ 0), ← EReal.coe_sub, ← EReal.coe_mul,
    ← EReal.coe_mul]
  congr 1
  ring

/-- On a real coordinate and a real row of coefficients the two lines are the same number. -/
theorem rterm_eq_kterm (s : ℝ) (row : Fin 64 → EReal) (hrow : ∀ k, ∃ r : ℝ, row k = (r : EReal)) :
    rterm (s : EReal) row = kterm (s : EReal) row := by
  unfold rterm kterm frac
  obtain ⟨lo, hlo⟩ := hrow (segN (s : EReal)).castSucc
  obtain ⟨hi, hhi⟩ := hrow (segN (s : EReal)).succ
  rw [hlo, hhi, word_1]
  rw [← EReal.coe_sub, ← EReal.coe_sub, ← EReal.coe_sub, ← EReal.coe_mul, ← EReal.coe_mul, ← EReal.coe_mul,
    ← EReal.coe_add, ← EReal.coe_add]
  congr 1
  ring

/-- On real inputs and real coefficients the reference's function is the kernel's. -/
theorem Gr_eq_Gk (x : (⟨2, ![65536, 512]⟩ : Shape).Idx → EReal) (c : (⟨2, ![512, 64]⟩ : Shape).Idx → EReal)
    (hx : ∀ j, ∃ r : ℝ, x j = (r : EReal)) (hc : ∀ j, ∃ r : ℝ, c j = (r : EReal)) : Gr x c = Gk x c := by
  funext i
  unfold Gr Gk
  rw [word_0, EReal.coe_zero, zero_add]
  refine Finset.sum_congr rfl fun f _ => ?_
  obtain ⟨r, hr⟩ := hx (ix2 ⟨(i 0).val, (i 0).isLt⟩ f)
  rw [hr, tR_coe, tK_coe]
  exact rterm_eq_kterm _ _ fun k => hc (ix2 f k)

end Cert.Spline

end
-- ==== Proof.Finite.lean ====
/-
  The precondition says every entry of both inputs is finite: read as extended reals, every entry is a real number.
-/
import proofs.«154092_j83588653515336_1_alg».proof.Pre_finite_inputs
import Idealize.ShloMosaic.PureOps.Ideal
import Idealize.ShloMosaic.Lib.ReduceAll

noncomputable section

namespace Cert.Spline

open Idealize.ShloMosaic

/-- An extended real whose absolute value lies strictly below the positive-infinity word is a real number. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | top => simp [Ideal.cmp] at h
  | coe r => exact ⟨r, rfl⟩

/-- If the finiteness predicate of the two inputs is all ones, every entry of each is a real number. -/
theorem real_of_pre [Cert.Pre_finite_inputs.Facts] (x : FVec Ideal Cert.Pre_finite_inputs.S65536x512 .f32)
    (c : FVec Ideal Cert.Pre_finite_inputs.S512x64 .f32)
    (h : Cert.Pre_finite_inputs.fn (F := Ideal) x c = fun _ => 1#1) :
    (∀ j, ∃ r : ℝ, x j = (r : EReal)) ∧ (∀ j, ∃ r : ℝ, c j = (r : EReal)) := by
  haveI : Subsingleton Cert.Pre_finite_inputs.S_.Idx := ⟨fun a b => funext fun d => d.elim0⟩
  have h0 := congrFun h (fun d => d.elim0)
  dsimp only [Cert.Pre_finite_inputs.fn] at h0
  obtain ⟨h1, h2⟩ := IntOp.andi_eq_one.1 h0
  constructor
  · intro j
    exact real_of_abs_lt_inf (x j) (Host.reduce_andi_all _ _ _ _ _ h1 j)
  · intro j
    exact real_of_abs_lt_inf (c j) (Host.reduce_andi_all _ _ _ _ _ h2 j)

end Cert.Spline

end
-- ==== Proof.lean ====
/-
  Both programs evaluate, for each of the 65536 batch rows, the sum over 512 features of a piecewise-linear spline
  with 64 knots on [-3, 3]: an input value is moved to the knot coordinate, the segment is its floor clamped to
  0..62, and the feature's value is the line through the segment's two knot coefficients at the position inside it.
  The kernel walks the segments keeping a masked running sum of  coefficient + position * slope  and forms the
  coordinate as (x + 3) * 10.5;  the reference finds the segment once, gathers its two knot coefficients, weights
  them by 1 - w and w, and forms the coordinate as (x + 3) / 6 * 63.
  Both results are the one spline sum of the arguments, spelt the kernel's way and the reference's way; the two
  spellings agree wherever every input entry and every coefficient is a real number, and the precondition
  (every entry of both inputs finite) says exactly that. So from arguments that agree the two programs end with
  equal results, entry by entry, and each leaves its arguments as they were.
-/
import proofs.«154092_j83588653515336_1_alg».proof.Defs
import proofs.«154092_j83588653515336_1_alg».proof.Proof.Gen.Kernel
import proofs.«154092_j83588653515336_1_alg».proof.Proof.Gen.Kernel.Skeleton
import proofs.«154092_j83588653515336_1_alg».proof.Proof.Gen.Kernel.Launch
import proofs.«154092_j83588653515336_1_alg».proof.Proof.Gen.Kernel.Points
import proofs.«154092_j83588653515336_1_alg».proof.Proof.Gen.Kernel.Frame
import proofs.«154092_j83588653515336_1_alg».proof.Proof.Gen.KernelIdeal
import proofs.«154092_j83588653515336_1_alg».proof.Proof.Gen.KernelIdeal.Skeleton
import proofs.«154092_j83588653515336_1_alg».proof.Proof.Gen.KernelIdeal.Launch
import proofs.«154092_j83588653515336_1_alg».proof.Proof.Gen.KernelIdeal.Points
import proofs.«154092_j83588653515336_1_alg».proof.Proof.Gen.KernelIdeal.Frame
import proofs.«154092_j83588653515336_1_alg».proof.Proof.Gen.ReferenceIdeal
import proofs.«154092_j83588653515336_1_alg».proof.Proof.Gen.Pre_finite_inputs
import proofs.«154092_j83588653515336_1_alg».proof.Proof.RefRunP
import proofs.«154092_j83588653515336_1_alg».proof.Proof.RefReadP
import proofs.«154092_j83588653515336_1_alg».proof.Proof.KValue
import proofs.«154092_j83588653515336_1_alg».proof.Proof.RefValue
import proofs.«154092_j83588653515336_1_alg».proof.Proof.Bridge
import proofs.«154092_j83588653515336_1_alg».proof.Proof.Finite
import Idealize.ShloMosaic.Adequacy
import Idealize.ShloMosaic.Init

noncomputable section

namespace Cert.Proof

open Idealize.ShloMosaic Idealize.SL.Sem

/-- The kernel over bit patterns runs to its end and leaves its two arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference read over the extended reals: its run gives the result and the unchanged arguments, of
    which this keeps the arguments. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Reading the kernel over the extended reals rewrote none of its operations: there is nothing to restate. -/
theorem preserves : Cert.preserves_Kernel_KernelIdeal := trivial

/-- Over the extended reals the kernel's result is the spline sum spelt its way, of its own arguments; the
    reference's is the spline sum spelt the reference's way, of arguments that agree with the kernel's; every entry of
    those arguments is a real number by the precondition, and on real numbers the two spellings are one function. -/
theorem algebraic : Cert.algebraic_KernelIdeal_ReferenceIdeal := by
  intro m ρ m' ρ' hpre hagree
  refine ⟨fun c => Cert.Spline.Gk
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨hx, hc⟩ := Cert.Spline.real_of_pre _ _ (hpre c)
  rw [Cert.ReferenceIdeal.ReadP.val_main_v50_eq, Cert.ReferenceIdeal.RefValue.ref_eq, (hagree c).1, (hagree c).2]
  exact Cert.Spline.Gr_eq_Gk _ _ hx hc

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
